-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S1x8192 : Shape := ⟨2, ![1, 8192]⟩
abbrev S256x128 : Shape := ⟨2, ![256, 128]⟩
abbrev S1x256 : Shape := ⟨2, ![1, 256]⟩
abbrev S8192 : Shape := ⟨1, ![8192]⟩
abbrev S8192x1 : Shape := ⟨2, ![8192, 1]⟩
abbrev S256x8192 : Shape := ⟨2, ![256, 8192]⟩
abbrev S256 : Shape := ⟨1, ![256]⟩
abbrev S256x1 : Shape := ⟨2, ![256, 1]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x8192, .f32⟩
  | .hbm, ⟨3, _⟩ => ⟨S1x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S8192x128, .f32⟩
  | .local _ .vmem, ⟨1, _⟩ => ⟨S256x128, .f32⟩
  | .local _ .vmem, ⟨2, _⟩ => ⟨S256x128, .f32⟩
  | .local _ .vmem, ⟨3, _⟩ => ⟨S1x256, .f32⟩
  | .local _ .vmem, ⟨4, _⟩ => ⟨S1x256, .f32⟩
  | .local _ .vmem, ⟨5, _⟩ => ⟨S1x8192, .f32⟩
  | .local _ .vmem, ⟨6, _⟩ => ⟨S1x8192, .f32⟩
  | .local _ .vmem, ⟨7, _⟩ => ⟨S1x8192, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v31 : BitVec 1 := Scalar.cmpi .eq arg0 c31_i32
  let v32 : BitVec 32 := Scalar.extui v31
  let c0_i32_17 : BitVec 32 := 0#32
  let v33 : BitVec 1 := Scalar.cmpi .ne v32 c0_i32_17
  v33

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S8192x128_S8192x128_0_0 : ∀ a, (![0, 0] : Fin 2 → Nat) a + S8192x128.size a ≤ S8192x128.size a
  h_S8192x128 : 0 < S8192x128.numel
  reduces_S8192x128_S8192 : S8192x128.Reduces [1] S8192
  shapeCasts_S8192_S8192x1 : S8192.ShapeCasts S8192x1
  transposes_S8192x1_p1_0_S1x8192 : S8192x1.Transposes [1, 0] S1x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S256x128_S256x128_0_0 : ∀ a, (![0, 0] : Fin 2 → Nat) a + S256x128.size a ≤ S256x128.size a
  h_S256x128 : 0 < S256x128.numel
  bitsLt_bf16_f32 : FTy.bits .bf16 < FTy.bits .f32
  reduces_S256x128_S256 : S256x128.Reduces [1] S256
  shapeCasts_S256_S256x1 : S256.ShapeCasts S256x1
  broadcasts_S256x1_S256x8192 : S256x1.Broadcasts S256x8192
  broadcasts_S1x8192_S256x8192 : S1x8192.Broadcasts S256x8192
  reduces_S256x8192_S256 : S256x8192.Reduces [1] S256
  transposes_S256x1_p1_0_S1x256 : S256x1.Transposes [1, 0] S1x256
  inb_S1x256_S1x256_0_0 : ∀ a, (![0, 0] : Fin 2 → Nat) a + S1x256.size a ≤ S1x256.size a
  h_S1x256 : 0 < S1x256.numel
  reduces_S256x8192_S8192 : S256x8192.Reduces [0] S8192
  shapeCasts_S8192_S1x8192 : S8192.ShapeCasts S1x8192
  reducesTo_S1x8192_S_d0_1 : S1x8192.ReducesTo [0, 1] S_
  h_S_ : 0 < S_.numel
  dot_S256x128_S8192x128_S256x8192_1_1_0_0_n_n_wf : DotDims.WF S256x128 S8192x128 S256x8192 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S8192x128.size a
  hwx0_1 : ∀ i : grid0.Coords, EltTy.bits .f32 = 32 ∨ (Rect.block (s := S8192x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x8192.size a
  hwx0_2 : ∀ i : grid0.Coords, EltTy.bits .f32 = 32 ∨ (Rect.block (s := S1x8192) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)

variable [Facts₀]

def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8192.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S128x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d0 : S8192x8192.ReducesTo [0] S8192
  reducesTo_S8192x8192_S8192_d1 : S8192x8192.ReducesTo [1] S8192
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Pieces.lean ====
/-
  What each control case of the kernel body leaves in the output blocks and in the two carried scratch rows, as
  values: every buffer the case stores into ends holding the payload of its last covering store, and a load that
  follows a store of the same case reads that store's payload back. Stated for any float instance.

  Case A (the first grid point) computes the squared row norms of x into the first scratch row, resets the running
  column minimum to +inf and then takes the first block's column minima into it; cases B and C (the later points)
  read both scratch rows as the point before left them; case C (the last point) also copies the running minimum out.
-/
import proofs.«119722_j43052752175176_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

/-- The offsets `![0, 0]` are the zero offsets: every load and store of the body goes through the whole-shape
    rectangle at them, so a load reads the buffer's contents and a covering store leaves its payload. -/
theorem hz : (![0, 0] : Fin 2 → Nat) = fun _ => 0 := funext fun a => by fin_cases a <;> rfl

/-- Case A, first scratch row: the squared norms of x's rows. -/
theorem sout_A_0 (c : Dev nD) (i : grid0.Coords) (arg1 : Memref sig .tc .vmem S8192x128 .f32) (harg1 : arg1.IsWhole) (arg2 : Memref sig .tc .vmem S256x128 .f32) (harg2 : arg2.IsWhole) (arg3 : Memref sig .tc .vmem S1x256 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (hc0 : cond0_0 i) (hc1 : ¬cond0_1 i)
    (x0 : Vec F S8192x128 .f32) (x1 : Vec F S256x128 .f32) :
    sout0_A_0 c i arg1 harg1 arg2 harg2 arg3 harg3 arg4 harg4 arg5 harg5 arg6 harg6 hc0 hc1 x0 x1 = k0_pay1 x0 := by
  unfold sout0_A_0
  rw [View.read_writes_eq_canon _ _ _ (scover0_A_0 c i arg1 harg1 arg2 harg2 arg3 harg3 arg4 harg4 arg5 harg5 arg6 harg6 hc0 hc1 x0 x1)]
  unfold kernelRun0_A
  dsimp only
  sl_unfold_words
  rw [View.canon_unit_zero hz]
  simp only [View.readAt_eq_ld, harg1.read_unread, harg2.read_unread, harg5.read_unread, harg6.read_unread, View.ld_unit_zero (S := S8192x128) hz, View.ld_unit_zero (S := S256x128) hz, View.ld_unit_zero (S := S1x8192) hz, View.readCov_unit_zero (S := S1x8192) _ hz]

/-- Case A, second scratch row: the first block's column minima taken into the +inf row. -/
theorem sout_A_1 (c : Dev nD) (i : grid0.Coords) (arg1 : Memref sig .tc .vmem S8192x128 .f32) (harg1 : arg1.IsWhole) (arg2 : Memref sig .tc .vmem S256x128 .f32) (harg2 : arg2.IsWhole) (arg3 : Memref sig .tc .vmem S1x256 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (hc0 : cond0_0 i) (hc1 : ¬cond0_1 i)
    (x0 : Vec F S8192x128 .f32) (x1 : Vec F S256x128 .f32) :
    sout0_A_1 c i arg1 harg1 arg2 harg2 arg3 harg3 arg4 harg4 arg5 harg5 arg6 harg6 hc0 hc1 x0 x1 = k0_pay5 x0 x1 (k0_pay1 x0) (k0_pay2 (F := F)) := by
  unfold sout0_A_1
  rw [View.read_writes_eq_canon _ _ _ (scover0_A_1 c i arg1 harg1 arg2 harg2 arg3 harg3 arg4 harg4 arg5 harg5 arg6 harg6 hc0 hc1 x0 x1)]
  unfold kernelRun0_A
  dsimp only
  sl_unfold_words
  rw [View.canon_cons_unit_zero (S := S1x8192) hz, View.readCov_unit_zero (S := S1x8192) _ hz]
  simp only [View.readAt_eq_ld, harg1.read_unread, harg2.read_unread, harg5.read_unread, harg6.read_unread, View.ld_unit_zero (S := S8192x128) hz, View.ld_unit_zero (S := S256x128) hz, View.ld_unit_zero (S := S1x8192) hz, View.readCov_unit_zero (S := S1x8192) _ hz]

/-- Case A, the row-minima output block. -/
theorem out_A_2 (c : Dev nD) (i : grid0.Coords) (arg1 : Memref sig .tc .vmem S8192x128 .f32) (harg1 : arg1.IsWhole) (arg2 : Memref sig .tc .vmem S256x128 .f32) (harg2 : arg2.IsWhole) (arg3 : Memref sig .tc .vmem S1x256 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (hc0 : cond0_0 i) (hc1 : ¬cond0_1 i)
    (x0 : Vec F S8192x128 .f32) (x1 : Vec F S256x128 .f32) :
    out0_A_2 c i arg1 harg1 arg2 harg2 arg3 harg3 arg4 harg4 arg5 harg5 arg6 harg6 hc0 hc1 x0 x1 = k0_pay4 x0 x1 (k0_pay1 x0) := by
  unfold out0_A_2
  rw [View.read_writes_eq_canon _ _ _ (cover0_A_2 c i arg1 harg1 arg2 harg2 arg3 harg3 arg4 harg4 arg5 harg5 arg6 harg6 hc0 hc1 x0 x1)]
  unfold kernelRun0_A
  dsimp only
  sl_unfold_words
  rw [View.canon_unit_zero hz]
  simp only [View.readAt_eq_ld, harg1.read_unread, harg2.read_unread, harg5.read_unread, harg6.read_unread, View.ld_unit_zero (S := S8192x128) hz, View.ld_unit_zero (S := S256x128) hz, View.ld_unit_zero (S := S1x8192) hz, View.readCov_unit_zero (S := S1x8192) _ hz]

/-- Case B, second scratch row: this block's column minima taken into what the point before left. -/
theorem sout_B_1 (c : Dev nD) (i : grid0.Coords) (arg1 : Memref sig .tc .vmem S8192x128 .f32) (harg1 : arg1.IsWhole) (arg2 : Memref sig .tc .vmem S256x128 .f32) (harg2 : arg2.IsWhole) (arg3 : Memref sig .tc .vmem S1x256 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (hc0 : ¬cond0_0 i) (hc1 : ¬cond0_1 i)
    (x0 : Vec F S8192x128 .f32) (x1 : Vec F S256x128 .f32) (xs0 xs1 : Vec F S1x8192 .f32) :
    sout0_B_1 c i arg1 harg1 arg2 harg2 arg3 harg3 arg4 harg4 arg5 harg5 arg6 harg6 hc0 hc1 x0 x1 xs0 xs1 = k0_pay5 x0 x1 xs0 xs1 := by
  unfold sout0_B_1
  rw [View.read_writes_eq_canon _ _ _ (scover0_B_1 c i arg1 harg1 arg2 harg2 arg3 harg3 arg4 harg4 arg5 harg5 arg6 harg6 hc0 hc1 x0 x1 xs0 xs1)]
  unfold kernelRun0_B
  dsimp only
  sl_unfold_words
  rw [View.canon_unit_zero hz]
  simp only [View.readAt_eq_ld, harg1.read_unread, harg2.read_unread, harg5.read_unread, harg6.read_unread, View.ld_unit_zero (S := S8192x128) hz, View.ld_unit_zero (S := S256x128) hz, View.ld_unit_zero (S := S1x8192) hz, View.readCov_unit_zero (S := S1x8192) _ hz]

/-- Case B, the row-minima output block. -/
theorem out_B_2 (c : Dev nD) (i : grid0.Coords) (arg1 : Memref sig .tc .vmem S8192x128 .f32) (harg1 : arg1.IsWhole) (arg2 : Memref sig .tc .vmem S256x128 .f32) (harg2 : arg2.IsWhole) (arg3 : Memref sig .tc .vmem S1x256 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (hc0 : ¬cond0_0 i) (hc1 : ¬cond0_1 i)
    (x0 : Vec F S8192x128 .f32) (x1 : Vec F S256x128 .f32) (xs0 xs1 : Vec F S1x8192 .f32) :
    out0_B_2 c i arg1 harg1 arg2 harg2 arg3 harg3 arg4 harg4 arg5 harg5 arg6 harg6 hc0 hc1 x0 x1 xs0 xs1 = k0_pay4 x0 x1 xs0 := by
  unfold out0_B_2
  rw [View.read_writes_eq_canon _ _ _ (cover0_B_2 c i arg1 harg1 arg2 harg2 arg3 harg3 arg4 harg4 arg5 harg5 arg6 harg6 hc0 hc1 x0 x1 xs0 xs1)]
  unfold kernelRun0_B
  dsimp only
  sl_unfold_words
  rw [View.canon_unit_zero hz]
  simp only [View.readAt_eq_ld, harg1.read_unread, harg2.read_unread, harg5.read_unread, harg6.read_unread, View.ld_unit_zero (S := S8192x128) hz, View.ld_unit_zero (S := S256x128) hz, View.ld_unit_zero (S := S1x8192) hz, View.readCov_unit_zero (S := S1x8192) _ hz]

/-- Case C, second scratch row. -/
theorem sout_C_1 (c : Dev nD) (i : grid0.Coords) (arg1 : Memref sig .tc .vmem S8192x128 .f32) (harg1 : arg1.IsWhole) (arg2 : Memref sig .tc .vmem S256x128 .f32) (harg2 : arg2.IsWhole) (arg3 : Memref sig .tc .vmem S1x256 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (hc0 : ¬cond0_0 i) (hc1 : cond0_1 i)
    (x0 : Vec F S8192x128 .f32) (x1 : Vec F S256x128 .f32) (xs0 xs1 : Vec F S1x8192 .f32) :
    sout0_C_1 c i arg1 harg1 arg2 harg2 arg3 harg3 arg4 harg4 arg5 harg5 arg6 harg6 hc0 hc1 x0 x1 xs0 xs1 = k0_pay5 x0 x1 xs0 xs1 := by
  unfold sout0_C_1
  rw [View.read_writes_eq_canon _ _ _ (scover0_C_1 c i arg1 harg1 arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg1.read_unread, harg2.read_unread, harg5.read_unread, harg6.read_unread, View.ld_unit_zero (S := S8192x128) hz, View.ld_unit_zero (S := S256x128) hz, View.ld_unit_zero (S := S1x8192) hz, View.readCov_unit_zero (S := S1x8192) _ hz]

/-- Case C, the row-minima output block. -/
theorem out_C_2 (c : Dev nD) (i : grid0.Coords) (arg1 : Memref sig .tc .vmem S8192x128 .f32) (harg1 : arg1.IsWhole) (arg2 : Memref sig .tc .vmem S256x128 .f32) (harg2 : arg2.IsWhole) (arg3 : Memref sig .tc .vmem S1x256 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (hc0 : ¬cond0_0 i) (hc1 : cond0_1 i)
    (x0 : Vec F S8192x128 .f32) (x1 : Vec F S256x128 .f32) (xs0 xs1 : Vec F S1x8192 .f32) :
    out0_C_2 c i arg1 harg1 arg2 harg2 arg3 harg3 arg4 harg4 arg5 harg5 arg6 harg6 hc0 hc1 x0 x1 xs0 xs1 = k0_pay4 x0 x1 xs0 := by
  unfold out0_C_2
  rw [View.read_writes_eq_canon _ _ _ (cover0_C_2 c i arg1 harg1 arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg1.read_unread, harg2.read_unread, harg5.read_unread, harg6.read_unread, View.ld_unit_zero (S := S8192x128) hz, View.ld_unit_zero (S := S256x128) hz, View.ld_unit_zero (S := S1x8192) hz, View.readCov_unit_zero (S := S1x8192) _ hz]

/-- Case C, the column-minima output: the running minimum just stored, read back and copied out. -/
theorem out_C_3 (c : Dev nD) (i : grid0.Coords) (arg1 : Memref sig .tc .vmem S8192x128 .f32) (harg1 : arg1.IsWhole) (arg2 : Memref sig .tc .vmem S256x128 .f32) (harg2 : arg2.IsWhole) (arg3 : Memref sig .tc .vmem S1x256 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x8192 .f32) (harg6 : arg6.IsWhole) (hc0 : ¬cond0_0 i) (hc1 : cond0_1 i)
    (x0 : Vec F S8192x128 .f32) (x1 : Vec F S256x128 .f32) (xs0 xs1 : Vec F S1x8192 .f32) :
    out0_C_3 c i arg1 harg1 arg2 harg2 arg3 harg3 arg4 harg4 arg5 harg5 arg6 harg6 hc0 hc1 x0 x1 xs0 xs1 = k0_pay5 x0 x1 xs0 xs1 := by
  unfold out0_C_3
  rw [View.read_writes_eq_canon _ _ _ (cover0_C_3 c i arg1 harg1 arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg1.read_unread, harg2.read_unread, harg5.read_unread, harg6.read_unread, View.ld_unit_zero (S := S8192x128) hz, View.ld_unit_zero (S := S256x128) hz, View.ld_unit_zero (S := S1x8192) hz, View.readCov_unit_zero (S := S1x8192) _ hz]

end Cert.KernelIdeal.Pieces

end
-- ==== Proof.LibColumn.lean ====
/-
  Column vectors read at an index given by coordinates.

  A sum or maximum taken with `keepdims` leaves a column `[a, 1]`, which is then spread over the lanes. These three
  readings complete the library's list of small layout forms (leading unit axes, one row spread over many rows)
  with the column ones: a vector `[a]` viewed as a column, a row `[1, a]` viewed as a column, and a column `[a, 1]`
  spread to `[a, b]`. Each is the general lemma for its operation with the coordinate arithmetic done: a shape cast
  keeps the row-major position, and a broadcast reads coordinate 0 on a unit axis.
-/
import Idealize.ShloMosaic.Lib.ValueLayout

namespace Cert.LibColumn

open Idealize.ShloMosaic Idealize.ShloMosaic.ValueIdx

variable {α : Type}

/-- An `[a]` vector cast to an `[a, 1]` column reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, a]` row cast to an `[a, 1]` column reads, at `(i, u)`, the row at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a, 1]` column broadcast to `[a, b]` reads, at `(p, c)`, the column at `p`: every lane of a row holds the row's one
    entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Pay.lean ====
/-
  The kernel body's five payloads read at an index, over the extended reals.

  With y_a the rows of the current block of y (256 of them) and x_n the rows of x (8192):
  the first payload is the row of squared norms |x_n|² = Σ_d x[n,d]²; the second the constant +inf row; the third
  the clamped squared distances max((|y_a|² + r[n]) − 2·Σ_d y[a,d]·x[n,d], 0), where r is the row the kernel reads
  from its first scratch (the squared norms of x); the fourth their minima over n, one per block row a; the fifth
  their minima over a, one per n, taken into the running minimum the kernel reads from its second scratch.
  A lane sum is a finite sum, the matrix product into a zero accumulator a finite sum of products, a change of
  float format the identity, and a minimum reduction the fold of `min` from +inf over the reduced coordinate.
-/
import proofs.«119722_j43052752175176_1_alg».proof.Proof.Gen.KernelIdeal.Skeleton
import proofs.«119722_j43052752175176_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx
open Cert.KernelIdeal Cert.KernelIdeal.Gen

/-- A lane sum of a matrix read at row `n`: the sum of that row's entries. -/
private theorem rowSum_apply {m k : ℕ} (v : FVec Ideal ⟨2, ![m, k]⟩ .f32)
    (h : (⟨2, ![m, k]⟩ : Shape).Reduces [1] ⟨1, ![m]⟩) (hφ : FKind.Formats .f32)
    (hacc : (0x00000000#32 : BitVec 32) = FKind.add.neutral .f32 hφ) (n : Fin m) :
    multiReduction (F := Ideal) .add [1] ⟨1, ![m]⟩ v 0x00000000#32 h hφ hacc (ix1 n) = ∑ d : Fin k, v (ix2 n d) := by
  refine (Ideal.multiReduction_add_single _ _ _ _ _ _).trans ?_
  refine Finset.sum_congr rfl fun d _ => ?_
  exact congrArg v (funext fun c => Fin.ext (by match c with | ⟨0, _⟩ => rfl | ⟨1, _⟩ => rfl))

/-! The matrix product's operand indices, axis by axis: the left operand's axis 0 is the output's axis 0, the right
    operand's axis 0 the output's axis 1, and both operands' axis 1 is the one contracted axis. -/

theorem lhs_dot_0 (i : S256x8192.Idx) (q : dot_S256x128_S8192x128_S256x8192_1_1_0_0_n_n.contr.Idx) :
    (dot_S256x128_S8192x128_S256x8192_1_1_0_0_n_n.lhsIdx i q 0).val = (i 0).val := by
  unfold DotDims.lhsIdx
  rw [dif_neg (show ¬(0 : Fin S256x128.rank) ∈ dot_S256x128_S8192x128_S256x8192_1_1_0_0_n_n.lhsBatch by decide), dif_pos (show (0 : Fin S256x128.rank) ∈ dot_S256x128_S8192x128_S256x8192_1_1_0_0_n_n.lhsNonContracting by decide)]
  rfl
theorem lhs_dot_1 (i : S256x8192.Idx) (q : dot_S256x128_S8192x128_S256x8192_1_1_0_0_n_n.contr.Idx) :
    (dot_S256x128_S8192x128_S256x8192_1_1_0_0_n_n.lhsIdx i q 1).val = (q ⟨0, by decide⟩).val :=
  dot_S256x128_S8192x128_S256x8192_1_1_0_0_n_n.lhsIdx_val_of_single rfl i q
theorem rhs_dot_0 (i : S256x8192.Idx) (q : dot_S256x128_S8192x128_S256x8192_1_1_0_0_n_n.contr.Idx) :
    (dot_S256x128_S8192x128_S256x8192_1_1_0_0_n_n.rhsIdx i q 0).val = (i 1).val := by
  unfold DotDims.rhsIdx
  rw [dif_neg (show ¬(0 : Fin S8192x128.rank) ∈ dot_S256x128_S8192x128_S256x8192_1_1_0_0_n_n.rhsBatch by decide), dif_pos (show (0 : Fin S8192x128.rank) ∈ dot_S256x128_S8192x128_S256x8192_1_1_0_0_n_n.rhsNonContracting by decide)]
  rfl
theorem rhs_dot_1 (i : S256x8192.Idx) (q : dot_S256x128_S8192x128_S256x8192_1_1_0_0_n_n.contr.Idx) :
    (dot_S256x128_S8192x128_S256x8192_1_1_0_0_n_n.rhsIdx i q 1).val = (q ⟨0, by decide⟩).val :=
  dot_S256x128_S8192x128_S256x8192_1_1_0_0_n_n.rhsIdx_val_of_single rfl i q

/-- The matrix product into a zero accumulator, read at `(a, n)`: the sum over the contracted coordinate of the products
    of row `a` of the left operand and row `n` of the right one. -/
private theorem dot_apply (L : FVec Ideal S256x128 .bf16) (R : FVec Ideal S8192x128 .bf16) (a : Fin 256) (n : Fin 8192) :
    matmul dot_S256x128_S8192x128_S256x8192_1_1_0_0_n_n none L R (constant S256x8192 .f32 0x00000000#32) (ix2 a n)
      = ∑ d : Fin 128, L (ix2 a d) * R (ix2 n d) := by
  simp only [matmul]
  rw [Ideal.matmul_constant_zero_apply, ← Equiv.sum_comp (ValueIdx.contrEquiv1 dot_S256x128_S8192x128_S256x8192_1_1_0_0_n_n 128 rfl rfl).symm]
  refine Finset.sum_congr rfl fun k _ => ?_
  have hk := ValueIdx.contrEquiv1_symm_val dot_S256x128_S8192x128_S256x8192_1_1_0_0_n_n 128 rfl rfl k
  have el : dot_S256x128_S8192x128_S256x8192_1_1_0_0_n_n.lhsIdx (ix2 a n) ((ValueIdx.contrEquiv1 dot_S256x128_S8192x128_S256x8192_1_1_0_0_n_n 128 rfl rfl).symm k) = ix2 a k := funext fun c => Fin.ext (by
    match c with
    | ⟨0, _⟩ => exact lhs_dot_0 _ _
    | ⟨1, _⟩ => exact (lhs_dot_1 _ _).trans hk)
  have er : dot_S256x128_S8192x128_S256x8192_1_1_0_0_n_n.rhsIdx (ix2 a n) ((ValueIdx.contrEquiv1 dot_S256x128_S8192x128_S256x8192_1_1_0_0_n_n 128 rfl rfl).symm k) = ix2 n k := funext fun c => Fin.ext (by
    match c with
    | ⟨0, _⟩ => exact rhs_dot_0 _ _
    | ⟨1, _⟩ => exact (rhs_dot_1 _ _).trans hk)
  rw [el, er]

/-- The squared norms of the block's rows, taken as a column and spread over the lanes: at `(a, n)` the squared norm of
    row `a`. -/
private theorem sqnCol_apply (x1 : Vec Ideal S256x128 .f32) (a : Fin 256) (n : Fin 8192) :
    broadcastTo S256x8192 (shapeCast S256x1 (multiReduction (F := Ideal) .add [1] S256 (mulf x1 x1) 0x00000000#32
        reduces_S256x128_S256 (.inl rfl) rfl) shapeCasts_S256_S256x1) broadcasts_S256x1_S256x8192 (ix2 a n)
      = ∑ d : Fin 128, x1 (ix2 a d) * x1 (ix2 a d) := by
  refine (Cert.LibColumn.broadcastTo_a1_ab_apply _ _ a n).trans ?_
  refine (Cert.LibColumn.shapeCast_a_a1_apply _ _ a (0 : Fin 1)).trans ?_
  exact rowSum_apply _ _ _ _ a

/-- A minimum reduction over the lanes of a matrix, read at row `a`: the fold of `min` from the accumulator's value over
    that row's entries. -/
private theorem rowMin_apply {m k : ℕ} (v : FVec Ideal ⟨2, ![m, k]⟩ .f32) (acc : BitVec 32)
    (h : (⟨2, ![m, k]⟩ : Shape).Reduces [1] ⟨1, ![m]⟩) (hφ : FKind.Formats .f32)
    (hacc : acc = FKind.minimumf.neutral .f32 hφ) (a : Fin m) :
    multiReduction (F := Ideal) .minimumf [1] ⟨1, ![m]⟩ v acc h hφ hacc (ix1 a)
      = (Finset.univ : Finset (Fin k)).fold min (Ideal.ofBits .f32 acc) (fun n => v (ix2 a n)) := by
  rw [multiReduction_minimumf_eq_fold]
  refine (h.fold_filter_drop_single _ _ v (ix1 a)).trans ?_
  have e : (v ∘ h.lift (ix1 a)) = fun n : Fin k => v (ix2 a n) := funext fun n => congrArg v (funext fun c => Fin.ext (by
    match c with | ⟨0, _⟩ => rfl | ⟨1, _⟩ => rfl))
  exact congrArg (fun f : Fin k → EReal => (Finset.univ : Finset (Fin k)).fold min (Ideal.ofBits .f32 acc) f) e

/-- A minimum reduction over the rows of a matrix, read at column `n`: the fold of `min` from the accumulator's value
    over that column's entries. -/
private theorem colMin_apply {m k : ℕ} (v : FVec Ideal ⟨2, ![m, k]⟩ .f32) (acc : BitVec 32)
    (h : (⟨2, ![m, k]⟩ : Shape).Reduces [0] ⟨1, ![k]⟩) (hφ : FKind.Formats .f32)
    (hacc : acc = FKind.minimumf.neutral .f32 hφ) (n : Fin k) :
    multiReduction (F := Ideal) .minimumf [0] ⟨1, ![k]⟩ v acc h hφ hacc (ix1 n)
      = (Finset.univ : Finset (Fin m)).fold min (Ideal.ofBits .f32 acc) (fun a => v (ix2 a n)) := by
  rw [multiReduction_minimumf_eq_fold]
  refine (h.fold_filter_drop_single _ _ v (ix1 n)).trans ?_
  have e : (v ∘ h.lift (ix1 n)) = fun a : Fin m => v (ix2 a n) := funext fun a => congrArg v (funext fun c => Fin.ext (by
    match c with | ⟨0, _⟩ => rfl | ⟨1, _⟩ => rfl))
  exact congrArg (fun f : Fin m → EReal => (Finset.univ : Finset (Fin m)).fold min (Ideal.ofBits .f32 acc) f) e

/-- The squared norms of x's rows, as the row the kernel keeps them in. -/
theorem pay1_apply (x0 : Vec Ideal S8192x128 .f32) (u : Fin 1) (n : Fin 8192) :
    k0_pay1 (F := Ideal) x0 (ix2 u n) = ∑ d : Fin 128, x0 (ix2 n d) * x0 (ix2 n d) := by
  unfold k0_pay1
  refine (congrFun (shapeCast_self _ _) _).trans ?_
  refine (transpose_ix2_apply _ _ u n).trans ?_
  refine (Cert.LibColumn.shapeCast_a_a1_apply _ _ n u).trans ?_
  exact rowSum_apply _ _ _ _ n

/-- The +inf row the running minimum starts from. -/
theorem pay2_apply (u : Fin 1) (n : Fin 8192) :
    k0_pay2 (F := Ideal) (ix2 u n) = Ideal.ofBits .f32 0x7F800000#32 := by
  unfold k0_pay2
  exact congrFun (shapeCast_self _ _) _

/-- The clamped squared distance between block row `a` of y and row `n` of x, the squared norm of x's row read from `r`. -/
theorem pay3_apply (x0 : Vec Ideal S8192x128 .f32) (x1 : Vec Ideal S256x128 .f32) (r : Vec Ideal S1x8192 .f32)
    (a : Fin 256) (n : Fin 8192) :
    k0_pay3 (F := Ideal) x0 x1 r (ix2 a n)
      = max (((∑ d : Fin 128, x1 (ix2 a d) * x1 (ix2 a d)) + r (ix2 (0 : Fin 1) n))
              - Ideal.ofBits .f32 0x40000000#32 * (∑ d : Fin 128, x1 (ix2 a d) * x0 (ix2 n d)))
            (Ideal.ofBits .f32 0x00000000#32) := by
  unfold k0_pay3
  refine (maximumf_apply _ _ _).trans ?_
  refine congrArg₂ max ?_ rfl
  refine (subf_apply _ _ _).trans ?_
  refine congrArg₂ HSub.hSub ?_ ?_
  · refine (addf_apply _ _ _).trans ?_
    refine congrArg₂ HAdd.hAdd ?_ ?_
    · exact sqnCol_apply x1 a n
    · exact broadcastTo_1b_ab_apply r broadcasts_S1x8192_S256x8192 a n
  · refine (mulf_apply _ _ _).trans ?_
    refine congrArg₂ HMul.hMul rfl ?_
    exact dot_apply _ _ a n

/-- The minimum over all rows of x, for block row `a`. -/
theorem pay4_apply (x0 : Vec Ideal S8192x128 .f32) (x1 : Vec Ideal S256x128 .f32) (r : Vec Ideal S1x8192 .f32)
    (u : Fin 1) (a : Fin 256) :
    k0_pay4 (F := Ideal) x0 x1 r (ix2 u a)
      = (Finset.univ : Finset (Fin 8192)).fold min (Ideal.ofBits .f32 0x7F800000#32)
          (fun n => k0_pay3 (F := Ideal) x0 x1 r (ix2 a n)) := by
  unfold k0_pay4
  refine (transpose_ix2_apply _ _ u a).trans ?_
  refine (Cert.LibColumn.shapeCast_a_a1_apply _ _ a u).trans ?_
  exact rowMin_apply _ _ _ _ _ a

/-- The running minimum `acc` lowered by the minimum over the block's rows, for row `n` of x. -/
theorem pay5_apply (x0 : Vec Ideal S8192x128 .f32) (x1 : Vec Ideal S256x128 .f32) (r acc : Vec Ideal S1x8192 .f32)
    (u : Fin 1) (n : Fin 8192) :
    k0_pay5 (F := Ideal) x0 x1 r acc (ix2 u n)
      = min (acc (ix2 u n))
          ((Finset.univ : Finset (Fin 256)).fold min (Ideal.ofBits .f32 0x7F800000#32)
            (fun a => k0_pay3 (F := Ideal) x0 x1 r (ix2 a n))) := by
  unfold k0_pay5
  refine (congrFun (shapeCast_self _ _) _).trans ?_
  refine (minimumf_apply _ _ _).trans ?_
  refine congrArg₂ min rfl ?_
  refine (shapeCast_a_1a_apply _ _ u n).trans ?_
  exact colMin_apply _ _ _ _ _ n

end Cert.KernelIdeal.Pay

end
-- ==== Proof.Spec.lean ====
/-
  The symmetric nearest-neighbour (chamfer) loss of two point sets, over the extended reals.

  x and y are 8192 points of dimension 128 each. The clamped squared distance between point n of x and point m of y
  is  dist n m = max((|x_n|² + |y_m|²) − 2·⟨x_n, y_m⟩, 0);  every point of y takes its nearest point of x
  (`nearX m`, the minimum of dist over n, from +inf), every point of x its nearest point of y (`nearY n`), and the
  loss is the sum of all these minima divided by 8192.

  Only commutative-monoid laws are used: addition and multiplication of extended reals commute and associate, and
  `min` is a semilattice operation. None of them needs the summands to be finite. The same float literals
  (2, 0, +inf, 8192) stand on both sides of the certificate, so they are kept as their words; only the zero word is
  evaluated, where a sum starts from it.

  A minimum taken block by block is carried by its universal property: `v` is the running minimum of `f` below `k`
  when, for every `c`,  c ≤ v  iff  c ≤ +inf and c ≤ f m for every m < k. Two values with that property are equal,
  taking one more block of 256 values into the running minimum moves k to k + 256, and below 8192 it is the whole
  minimum.
-/
import Idealize.ShloMosaic.PureOps.Ideal
import Idealize.ShloMosaic.PureOps.Ideal.Laws
import Idealize.ShloMosaic.Lib.ValueIdx
import Mathlib.Data.Finset.Fold
import Mathlib.Algebra.BigOperators.Group.Finset.Basic

noncomputable section

namespace Cert.Chamfer

open Idealize.ShloMosaic Idealize.ShloMosaic.ValueIdx

/-- A set of 8192 points of dimension 128, coordinates extended reals. -/
abbrev Pts : Type := (⟨2, ![8192, 128]⟩ : Shape).Idx → EReal

/-- The float literals of the two programs, as their words. -/
def two : EReal := Ideal.ofBits .f32 0x40000000#32
def zero : EReal := Ideal.ofBits .f32 0x00000000#32
def top : EReal := Ideal.ofBits .f32 0x7F800000#32
def cnt : EReal := Ideal.ofBits .f32 0x46000000#32

theorem zero_eq : zero = 0 := Ideal.ofBits_zero_f32

/-- The squared norm of point `n`. -/
def sq (x : Pts) (n : Fin 8192) : EReal := ∑ d : Fin 128, x (ix2 n d) * x (ix2 n d)

/-- The inner product of point `n` of `x` with point `m` of `y`. -/
def dot (x y : Pts) (n m : Fin 8192) : EReal := ∑ d : Fin 128, x (ix2 n d) * y (ix2 m d)

/-- The clamped squared distance between point `n` of `x` and point `m` of `y`. -/
def dist (x y : Pts) (n m : Fin 8192) : EReal := max ((sq x n + sq y m) - two * dot x y n m) zero

/-- The distance from point `m` of `y` to its nearest point of `x`. -/
def nearX (x y : Pts) (m : Fin 8192) : EReal := (Finset.univ : Finset (Fin 8192)).fold min top (fun n => dist x y n m)

/-- The distance from point `n` of `x` to its nearest point of `y`. -/
def nearY (x y : Pts) (n : Fin 8192) : EReal := (Finset.univ : Finset (Fin 8192)).fold min top (fun m => dist x y n m)

/-- The loss: all nearest distances summed, over the number of points. -/
def loss (x y : Pts) : EReal := Ideal.div ((∑ m : Fin 8192, nearX x y m) + (∑ n : Fin 8192, nearY x y n)) cnt

/-! ## The distance, as each program spells it -/

theorem dot_comm (x y : Pts) (n m : Fin 8192) : (∑ d : Fin 128, y (ix2 m d) * x (ix2 n d)) = dot x y n m :=
  Finset.sum_congr rfl fun d _ => mul_comm _ _

/-- With the roles of the two point sets exchanged (the block of y first): the same distance. -/
theorem dist_swapped (x y : Pts) (n m : Fin 8192) :
    max ((sq y m + sq x n) - two * (∑ d : Fin 128, y (ix2 m d) * x (ix2 n d))) zero = dist x y n m := by
  rw [dot_comm, add_comm (sq y m) (sq x n)]; rfl

/-- With each squared norm started from the zero word: the same distance. -/
theorem dist_from_zero (x y : Pts) (n m : Fin 8192) :
    max (((zero + sq x n) + (zero + sq y m)) - two * dot x y n m) zero = dist x y n m := by
  unfold dist; rw [zero_eq, zero_add, zero_add]

/-! ## A minimum taken block by block -/

/-- `v` is the minimum of +inf and the values `f m`, `m < k`. -/
def IsRunMin (f : Fin 8192 → EReal) (k : ℕ) (v : EReal) : Prop :=
  ∀ c : EReal, c ≤ v ↔ c ≤ top ∧ ∀ m : Fin 8192, m.val < k → c ≤ f m

theorem isRunMin_zero (f : Fin 8192 → EReal) : IsRunMin f 0 top :=
  fun c => ⟨fun h => ⟨h, fun m hm => absurd hm (Nat.not_lt_zero _)⟩, fun h => h.1⟩

/-- Taking the block of 256 values `g` = `f` at `k, …, k + 255` into the running minimum. -/
theorem isRunMin_step (f : Fin 8192 → EReal) (k : ℕ) (v : EReal) (hv : IsRunMin f k v) (g : Fin 256 → EReal)
    (hg : ∀ (a : Fin 256) (h : k + a.val < 8192), g a = f ⟨k + a.val, h⟩) (hk : k + 256 ≤ 8192) :
    IsRunMin f (k + 256) (min v ((Finset.univ : Finset (Fin 256)).fold min top g)) := by
  intro c
  rw [le_min_iff, hv c, Finset.le_fold_min]
  constructor
  · rintro ⟨⟨ht, hlo⟩, -, hb⟩
    refine ⟨ht, fun m hm => ?_⟩
    by_cases hlt : m.val < k
    · exact hlo m hlt
    · have ha : m.val - k < 256 := by omega
      have := hb ⟨m.val - k, ha⟩ (Finset.mem_univ _)
      rw [hg ⟨m.val - k, ha⟩ (by show k + (m.val - k) < 8192; omega)] at this
      have e : (⟨k + (m.val - k), by omega⟩ : Fin 8192) = m := Fin.ext (by show k + (m.val - k) = m.val; omega)
      rwa [e] at this
  · rintro ⟨ht, hall⟩
    refine ⟨⟨ht, fun m hm => hall m (by omega)⟩, ht, fun a _ => ?_⟩
    have h : k + a.val < 8192 := by have := a.isLt; omega
    rw [hg a h]
    exact hall ⟨k + a.val, h⟩ (by show k + a.val < k + 256; have := a.isLt; omega)

/-- Below 8192 the running minimum is the whole minimum. -/
theorem isRunMin_full (f : Fin 8192 → EReal) (v : EReal) (hv : IsRunMin f 8192 v) :
    v = (Finset.univ : Finset (Fin 8192)).fold min top f := by
  have key : ∀ c : EReal, c ≤ v ↔ c ≤ (Finset.univ : Finset (Fin 8192)).fold min top f := fun c => by
    rw [hv c, Finset.le_fold_min]
    exact ⟨fun h => ⟨h.1, fun m _ => h.2 m m.isLt⟩, fun h => ⟨h.1, fun m _ => h.2 m (Finset.mem_univ _)⟩⟩
  exact le_antisymm ((key v).1 le_rfl) ((key _).2 le_rfl)

/-! ## The loss, as each program sums it -/

/-- Two sums, each from the zero word, then added (the kernel's host lines). -/
theorem loss_two_sums (x y : Pts) :
    Ideal.div ((zero + ∑ m : Fin 8192, nearX x y m) + (zero + ∑ n : Fin 8192, nearY x y n)) cnt = loss x y := by
  rw [zero_eq, zero_add, zero_add]; rfl

/-- One sum of the pointwise sums, from the zero word (the reference's host lines). -/
theorem loss_one_sum (x y : Pts) :
    Ideal.div (zero + ∑ i : Fin 8192, (nearX x y i + nearY x y i)) cnt = loss x y := by
  rw [zero_eq, zero_add, Finset.sum_add_distrib]; rfl

end Cert.Chamfer

end
-- ==== Proof.Block.lean ====
/-
  One block of y against all of x, over the extended reals.

  Let the block hold the points k, …, k + 255 of y, let the kernel's first scratch row hold the squared norms of
  x's rows. Then the body's distance payload at (a, n) is the clamped squared distance between row n of x and point
  k + a of y (the kernel adds the two squared norms in the other order and multiplies the coordinates in the other
  order: addition and multiplication commute); its row minima are the nearest-row distances of the block's points;
  and taking its column minima into a running minimum below k gives the running minimum below k + 256.
-/
import proofs.«119722_j43052752175176_1_alg».proof.Proof.Pay
import proofs.«119722_j43052752175176_1_alg».proof.Proof.Spec

noncomputable section

namespace Cert.KernelIdeal.Block

open Idealize.ShloMosaic Idealize.ShloMosaic.ValueIdx
open Cert.KernelIdeal Cert.KernelIdeal.Gen Cert.KernelIdeal.Pay Cert.Chamfer

variable (x y : Pts) (x0 : Vec Ideal S8192x128 .f32) (x1 : Vec Ideal S256x128 .f32) (r : Vec Ideal S1x8192 .f32) (k : ℕ)
  (hx0 : ∀ (n : Fin 8192) (d : Fin 128), x0 (ix2 n d) = x (ix2 n d))
  (hx1 : ∀ (a : Fin 256) (d : Fin 128) (h : k + a.val < 8192), x1 (ix2 a d) = y (ix2 ⟨k + a.val, h⟩ d))
  (hr : ∀ n : Fin 8192, r (ix2 (0 : Fin 1) n) = sq x n)

include hx0 hx1 hr

/-- The distance payload at (a, n): row n of x against point k + a of y. -/
theorem dist_at (a : Fin 256) (n : Fin 8192) (h : k + a.val < 8192) :
    k0_pay3 (F := Ideal) x0 x1 r (ix2 a n) = dist x y n ⟨k + a.val, h⟩ := by
  rw [pay3_apply]
  simp only [hx0, hx1 _ _ h, hr]
  exact dist_swapped x y n ⟨k + a.val, h⟩

/-- The row minima: point k + a of y to its nearest row of x. -/
theorem rowmin_at (u : Fin 1) (a : Fin 256) (h : k + a.val < 8192) :
    k0_pay4 (F := Ideal) x0 x1 r (ix2 u a) = nearX x y ⟨k + a.val, h⟩ := by
  rw [pay4_apply]
  exact Finset.fold_congr fun n _ => dist_at x y x0 x1 r k hx0 hx1 hr a n h

/-- The column minima taken into a running minimum below k: the running minimum below k + 256. -/
theorem colmin_step (acc : Vec Ideal S1x8192 .f32) (n : Fin 8192) (hk : k + 256 ≤ 8192)
    (hacc : IsRunMin (dist x y n) k (acc (ix2 (0 : Fin 1) n))) :
    IsRunMin (dist x y n) (k + 256) (k0_pay5 (F := Ideal) x0 x1 r acc (ix2 (0 : Fin 1) n)) := by
  rw [pay5_apply]
  exact isRunMin_step (dist x y n) k _ hacc _ (fun a h => dist_at x y x0 x1 r k hx0 hx1 hr a n h) hk

end Cert.KernelIdeal.Block

end
-- ==== Proof.KValue.lean ====
/-
  What the kernel's scratch rows and output blocks hold after each grid point.

  x is whole in its window; point t sees rows 256·t … 256·t + 255 of y. After every point the first scratch row holds
  the squared norms of x's rows (computed at the first point, kept afterwards). After point t the second scratch
  row holds, for every row n of x, the minimum of +inf and the distances to the points of y below 256·(t + 1): the
  first point takes its block into the +inf row, every later point takes its block into what the point before left
  (induction on the point). The row-minima block of point t holds, for each of its 256 points of y, the distance to
  the nearest row of x; and at the last point the column-minima output is the second scratch row, now the minimum
  over all of y.
-/
import proofs.«119722_j43052752175176_1_alg».proof.Proof.Gen.KernelIdeal.Frame
import proofs.«119722_j43052752175176_1_alg».proof.Proof.Pieces
import proofs.«119722_j43052752175176_1_alg».proof.Proof.Block
import proofs.«119722_j43052752175176_1_alg».proof.Proof.Spec
import Idealize.ShloMosaic.Lib.Pipeline.Value
import Idealize.ShloMosaic.Lib.ValueIdx

noncomputable section

namespace Cert.KernelIdeal.KValue

open Idealize.ShloMosaic Idealize.ShloMosaic.TcCoe Idealize.SL.Sem Idealize.ShloMosaic.ValueIdx
open Cert.KernelIdeal Cert.KernelIdeal.Gen Cert.Chamfer

variable (m : (ℓ : Loc nD τ sig) → Buf (Elt Ideal) ℓ)

/-- The two argument arrays as the region finds them, and the two input blocks of a point, at their literal types. -/
abbrev xarr (c : Dev nD) : Pts := V m c main_arg0
abbrev yarr (c : Dev nD) : Pts := V m c main_arg1
abbrev xblk (c : Dev nD) (t : Fin cfg0.N) : Vec Ideal S8192x128 .f32 := iblk m c 0 t
abbrev yblk (c : Dev nD) (t : Fin cfg0.N) : Vec Ideal S256x128 .f32 := iblk m c 1 t

theorem xarr_eq (c : Dev nD) : xarr m c = m ((c : Thread nD τ).loc main_arg0) := V_main_arg0 m c
theorem yarr_eq (c : Dev nD) : yarr m c = m ((c : Thread nD τ).loc main_arg1) := V_main_arg1 m c

/-! ## The input blocks -/

/-- The printed index maps of the two input windows: x's block never moves, y's block is the point's number. -/
theorem idx_in : ∀ t : Fin cfg0.N, win0_0.index t (0 : Fin 2) = 0 ∧ win0_0.index t (1 : Fin 2) = 0
    ∧ win0_1.index t (0 : Fin 2) = t.val ∧ win0_1.index t (1 : Fin 2) = 0 :=
  (by decide +kernel : ∀ t : Fin grid0.N, _)

/-- x's block is x. -/
theorem xblk_apply (c : Dev nD) (t : Fin cfg0.N) (n : Fin 8192) (d : Fin 128) :
    xblk m c t (ix2 n d) = xarr m c (ix2 n d) := by
  obtain ⟨e0, e1, -, -⟩ := idx_in t
  unfold xblk iblk
  rw [View.read_apply]
  show V m c main_arg0 _ = V m c main_arg0 (ix2 n d)
  congr 1
  funext a
  apply Fin.ext
  match a with
  | ⟨0, _⟩ => show win0_0.index t 0 * 8192 + 1 * n.val = n.val; rw [e0]; omega
  | ⟨1, _⟩ => show win0_0.index t 1 * 128 + 1 * d.val = d.val; rw [e1]; omega

/-- Row a of point t's block of y is row 256·t + a of y. -/
theorem yblk_apply (c : Dev nD) (t : Fin cfg0.N) (a : Fin 256) (d : Fin 128) (h : 256 * t.val + a.val < 8192) :
    yblk m c t (ix2 a d) = yarr m c (ix2 ⟨256 * t.val + a.val, h⟩ d) := by
  obtain ⟨-, -, e0, e1⟩ := idx_in t
  unfold yblk iblk
  rw [View.read_apply]
  show V m c main_arg1 _ = V m c main_arg1 (ix2 ⟨256 * t.val + a.val, h⟩ d)
  congr 1
  funext b
  apply Fin.ext
  match b with
  | ⟨0, _⟩ => show win0_1.index t 0 * 256 + 1 * a.val = 256 * t.val + a.val; rw [e0]; omega
  | ⟨1, _⟩ => show win0_1.index t 1 * 128 + 1 * d.val = d.val; rw [e1]; omega

/-! ## What a point leaves, case by case, as payloads of its blocks -/

/-- What the point before `t` left (the frame's own spelling of it). -/
abbrev prev (c : Dev nD) (t : Fin cfg0.N) := outsAt0 m c (t.val - 1) (Nat.lt_of_le_of_lt (Nat.sub_le _ _) t.isLt)

theorem A_s0 (c : Dev nD) (t : Fin cfg0.N) (h0 : t.val % 32 = 0) (h1 : ¬t.val % 32 = 31) :
    (outsAt0 m c t.val t.isLt).2.2.1 = k0_pay1 (xblk m c t) := by
  rw [outsAt0_A m c t h0 h1]; dsimp only
  exact Pieces.sout_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t)

theorem A_s1 (c : Dev nD) (t : Fin cfg0.N) (h0 : t.val % 32 = 0) (h1 : ¬t.val % 32 = 31) :
    (outsAt0 m c t.val t.isLt).2.2.2 = k0_pay5 (xblk m c t) (yblk m c t) (k0_pay1 (xblk m c t)) (k0_pay2 (F := Ideal)) := by
  rw [outsAt0_A m c t h0 h1]; dsimp only
  exact Pieces.sout_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t)

theorem A_o2 (c : Dev nD) (t : Fin cfg0.N) (h0 : t.val % 32 = 0) (h1 : ¬t.val % 32 = 31) :
    (outsAt0 m c t.val t.isLt).1 = k0_pay4 (xblk m c t) (yblk m c t) (k0_pay1 (xblk m c t)) := by
  rw [outsAt0_A m c t h0 h1]; dsimp only
  exact Pieces.out_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t)

theorem B_s0 (c : Dev nD) (t : Fin cfg0.N) (h0 : ¬t.val % 32 = 0) (h1 : ¬t.val % 32 = 31) :
    (outsAt0 m c t.val t.isLt).2.2.1 = (prev m c t).2.2.1 := by
  rw [outsAt0_B m c t h0 h1]; dsimp only; exact rfl

theorem B_s1 (c : Dev nD) (t : Fin cfg0.N) (h0 : ¬t.val % 32 = 0) (h1 : ¬t.val % 32 = 31) :
    (outsAt0 m c t.val t.isLt).2.2.2 = k0_pay5 (xblk m c t) (yblk m c t) (prev m c t).2.2.1 (prev m c t).2.2.2 := by
  rw [outsAt0_B m c t h0 h1]; dsimp only
  exact Pieces.sout_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) (prev m c t).2.2.1 (prev m c t).2.2.2

theorem B_o2 (c : Dev nD) (t : Fin cfg0.N) (h0 : ¬t.val % 32 = 0) (h1 : ¬t.val % 32 = 31) :
    (outsAt0 m c t.val t.isLt).1 = k0_pay4 (xblk m c t) (yblk m c t) (prev m c t).2.2.1 := by
  rw [outsAt0_B m c t h0 h1]; dsimp only
  exact Pieces.out_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) (prev m c t).2.2.1 (prev m c t).2.2.2

theorem C_s0 (c : Dev nD) (t : Fin cfg0.N) (h0 : ¬t.val % 32 = 0) (h1 : t.val % 32 = 31) :
    (outsAt0 m c t.val t.isLt).2.2.1 = (prev m c t).2.2.1 := by
  rw [outsAt0_C m c t h0 h1]; dsimp only; exact rfl

theorem C_s1 (c : Dev nD) (t : Fin cfg0.N) (h0 : ¬t.val % 32 = 0) (h1 : t.val % 32 = 31) :
    (outsAt0 m c t.val t.isLt).2.2.2 = k0_pay5 (xblk m c t) (yblk m c t) (prev m c t).2.2.1 (prev m c t).2.2.2 := by
  rw [outsAt0_C m c t h0 h1]; dsimp only
  exact Pieces.sout_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) (prev m c t).2.2.1 (prev m c t).2.2.2

theorem C_o2 (c : Dev nD) (t : Fin cfg0.N) (h0 : ¬t.val % 32 = 0) (h1 : t.val % 32 = 31) :
    (outsAt0 m c t.val t.isLt).1 = k0_pay4 (xblk m c t) (yblk m c t) (prev m c t).2.2.1 := by
  rw [outsAt0_C m c t h0 h1]; dsimp only
  exact Pieces.out_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) (prev m c t).2.2.1 (prev m c t).2.2.2

theorem C_o3 (c : Dev nD) (t : Fin cfg0.N) (h0 : ¬t.val % 32 = 0) (h1 : t.val % 32 = 31) :
    (outsAt0 m c t.val t.isLt).2.1 = k0_pay5 (xblk m c t) (yblk m c t) (prev m c t).2.2.1 (prev m c t).2.2.2 := by
  rw [outsAt0_C m c t h0 h1]; dsimp only
  exact Pieces.out_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) _ _ (iblk m c 0 t) (iblk m c 1 t) (prev m c t).2.2.1 (prev m c t).2.2.2

/-! ## The two scratch rows after each point -/

/-- The squared norms of x's rows, as the first point computes them. -/
theorem sqrow (c : Dev nD) (t : Fin cfg0.N) (n : Fin 8192) :
    k0_pay1 (F := Ideal) (xblk m c t) (ix2 (0 : Fin 1) n) = sq (xarr m c) n := by
  rw [Pay.pay1_apply]
  exact Finset.sum_congr rfl fun d _ => by rw [xblk_apply]

/-- After point `t`: the first scratch row holds the squared norms of x's rows, the second the running minimum of
    the distances to the points of y below 256·(t + 1). -/
def ScratchInv (c : Dev nD) (t : Fin cfg0.N) : Prop :=
  (∀ n : Fin 8192, (outsAt0 m c t.val t.isLt).2.2.1 (ix2 (0 : Fin 1) n) = sq (xarr m c) n) ∧
  (∀ n : Fin 8192, IsRunMin (dist (xarr m c) (yarr m c) n) (256 * t.val + 256)
      ((outsAt0 m c t.val t.isLt).2.2.2 (ix2 (0 : Fin 1) n)))

theorem scratch_inv (c : Dev nD) : ∀ (k : ℕ) (h : k < cfg0.N), ScratchInv m c ⟨k, h⟩
  | 0, h => by
    have h0 : (⟨0, h⟩ : Fin cfg0.N).val % 32 = 0 := rfl
    have h1 : ¬(⟨0, h⟩ : Fin cfg0.N).val % 32 = 31 := by dsimp only; omega
    refine ⟨fun n => ?_, fun n => ?_⟩
    · rw [A_s0 m c ⟨0, h⟩ h0 h1]; exact sqrow m c ⟨0, h⟩ n
    · rw [A_s1 m c ⟨0, h⟩ h0 h1]
      have hstep := Block.colmin_step (xarr m c) (yarr m c) (xblk m c ⟨0, h⟩) (yblk m c ⟨0, h⟩) (k0_pay1 (xblk m c ⟨0, h⟩))
        (256 * (⟨0, h⟩ : Fin cfg0.N).val) (xblk_apply m c ⟨0, h⟩) (yblk_apply m c ⟨0, h⟩) (sqrow m c ⟨0, h⟩)
        (k0_pay2 (F := Ideal)) n (by dsimp only; omega)
        (by rw [Pay.pay2_apply]; exact isRunMin_zero _)
      exact hstep
  | k + 1, h => by
    have hN : cfg0.N = 32 := N_0
    have ih := scratch_inv c k (Nat.lt_of_succ_lt h)
    have h0 : ¬(⟨k + 1, h⟩ : Fin cfg0.N).val % 32 = 0 := by dsimp only; omega
    have hk : 256 * (⟨k + 1, h⟩ : Fin cfg0.N).val + 256 ≤ 8192 := by dsimp only; omega
    have hacc : ∀ n : Fin 8192, IsRunMin (dist (xarr m c) (yarr m c) n) (256 * (⟨k + 1, h⟩ : Fin cfg0.N).val)
        ((prev m c ⟨k + 1, h⟩).2.2.2 (ix2 (0 : Fin 1) n)) := fun n => by
      have := ih.2 n
      have e : 256 * (⟨k + 1, h⟩ : Fin cfg0.N).val = 256 * (⟨k, Nat.lt_of_succ_lt h⟩ : Fin cfg0.N).val + 256 := by
        dsimp only; omega
      rw [e]; exact this
    have hsq : ∀ n : Fin 8192, (prev m c ⟨k + 1, h⟩).2.2.1 (ix2 (0 : Fin 1) n) = sq (xarr m c) n := ih.1
    by_cases h1 : (⟨k + 1, h⟩ : Fin cfg0.N).val % 32 = 31
    · refine ⟨fun n => ?_, fun n => ?_⟩
      · rw [C_s0 m c ⟨k + 1, h⟩ h0 h1]; exact hsq n
      · rw [C_s1 m c ⟨k + 1, h⟩ h0 h1]
        exact Block.colmin_step (xarr m c) (yarr m c) (xblk m c ⟨k + 1, h⟩) (yblk m c ⟨k + 1, h⟩) (prev m c ⟨k + 1, h⟩).2.2.1
          (256 * (⟨k + 1, h⟩ : Fin cfg0.N).val) (xblk_apply m c ⟨k + 1, h⟩) (yblk_apply m c ⟨k + 1, h⟩) hsq
          (prev m c ⟨k + 1, h⟩).2.2.2 n hk (hacc n)
    · refine ⟨fun n => ?_, fun n => ?_⟩
      · rw [B_s0 m c ⟨k + 1, h⟩ h0 h1]; exact hsq n
      · rw [B_s1 m c ⟨k + 1, h⟩ h0 h1]
        exact Block.colmin_step (xarr m c) (yarr m c) (xblk m c ⟨k + 1, h⟩) (yblk m c ⟨k + 1, h⟩) (prev m c ⟨k + 1, h⟩).2.2.1
          (256 * (⟨k + 1, h⟩ : Fin cfg0.N).val) (xblk_apply m c ⟨k + 1, h⟩) (yblk_apply m c ⟨k + 1, h⟩) hsq
          (prev m c ⟨k + 1, h⟩).2.2.2 n hk (hacc n)

/-- What the point before a later point left in the two scratch rows. -/
theorem prev_inv (c : Dev nD) (t : Fin cfg0.N) (h0 : ¬t.val % 32 = 0) :
    (∀ n : Fin 8192, (prev m c t).2.2.1 (ix2 (0 : Fin 1) n) = sq (xarr m c) n) ∧
    (∀ n : Fin 8192, IsRunMin (dist (xarr m c) (yarr m c) n) (256 * t.val) ((prev m c t).2.2.2 (ix2 (0 : Fin 1) n))) := by
  have hN : cfg0.N = 32 := N_0
  have ht := t.isLt
  have ih := scratch_inv m c (t.val - 1) (Nat.lt_of_le_of_lt (Nat.sub_le _ _) t.isLt)
  refine ⟨ih.1, fun n => ?_⟩
  have := ih.2 n
  have e : 256 * t.val = 256 * (⟨t.val - 1, Nat.lt_of_le_of_lt (Nat.sub_le _ _) t.isLt⟩ : Fin cfg0.N).val + 256 := by
    dsimp only; omega
  rw [e]; exact this

/-! ## The output blocks -/

/-- The row-minima block of point `t`: each of its 256 points of y to its nearest row of x. -/
theorem out2_at (c : Dev nD) (t : Fin cfg0.N) (a : Fin 256) (h : 256 * t.val + a.val < 8192) :
    (outsAt0 m c t.val t.isLt).1 (ix2 (0 : Fin 1) a) = nearX (xarr m c) (yarr m c) ⟨256 * t.val + a.val, h⟩ := by
  have hN : cfg0.N = 32 := N_0
  have ht := t.isLt
  by_cases h0 : t.val % 32 = 0
  · have h1 : ¬t.val % 32 = 31 := by omega
    rw [A_o2 m c t h0 h1]
    exact Block.rowmin_at (xarr m c) (yarr m c) (xblk m c t) (yblk m c t) (k0_pay1 (xblk m c t)) (256 * t.val)
      (xblk_apply m c t) (yblk_apply m c t) (sqrow m c t) 0 a h
  · obtain ⟨hsq, -⟩ := prev_inv m c t h0
    by_cases h1 : t.val % 32 = 31
    · rw [C_o2 m c t h0 h1]
      exact Block.rowmin_at (xarr m c) (yarr m c) (xblk m c t) (yblk m c t) (prev m c t).2.2.1 (256 * t.val)
        (xblk_apply m c t) (yblk_apply m c t) hsq 0 a h
    · rw [B_o2 m c t h0 h1]
      exact Block.rowmin_at (xarr m c) (yarr m c) (xblk m c t) (yblk m c t) (prev m c t).2.2.1 (256 * t.val)
        (xblk_apply m c t) (yblk_apply m c t) hsq 0 a h

/-- The column-minima output at the last point: each row of x to its nearest point of y. -/
theorem out3_last (c : Dev nD) (t : Fin cfg0.N) (ht : t.val = 31) (n : Fin 8192) :
    (outsAt0 m c t.val t.isLt).2.1 (ix2 (0 : Fin 1) n) = nearY (xarr m c) (yarr m c) n := by
  have h0 : ¬t.val % 32 = 0 := by omega
  have h1 : t.val % 32 = 31 := by omega
  obtain ⟨hsq, hacc⟩ := prev_inv m c t h0
  rw [C_o3 m c t h0 h1]
  have hstep := Block.colmin_step (xarr m c) (yarr m c) (xblk m c t) (yblk m c t) (prev m c t).2.2.1 (256 * t.val)
    (xblk_apply m c t) (yblk_apply m c t) hsq (prev m c t).2.2.2 n (by omega) (hacc n)
  have e : 256 * t.val + 256 = 8192 := by omega
  rw [e] at hstep
  exact isRunMin_full _ _ hstep

end Cert.KernelIdeal.KValue

end
-- ==== Proof.Total.lean ====
/-
  The two rows of nearest distances, and their total.

  The kernel leaves the nearest-row distances of y's points and the nearest-point distances of x's rows as two
  [1, 8192] rows; the host lines after it sum each row from the zero word, add the two sums and divide by 8192.
  A sum over the index set of a [1, 8192] row is the sum over its 8192 lanes.
-/
import proofs.«119722_j43052752175176_1_alg».proof.Proof.Spec
import Idealize.ShloMosaic.PureOps.Ideal.Laws
import Idealize.ShloMosaic.Lib.ValueIdx

noncomputable section

namespace Cert.Chamfer

open Idealize.ShloMosaic Idealize.ShloMosaic.ValueIdx

/-- The nearest-row distances of y's points, as a [1, 8192] row. -/
def inRow (x y : Pts) : (⟨2, ![1, 8192]⟩ : Shape).Idx → EReal := fun i => nearX x y (i 1)

/-- The nearest-point distances of x's rows, as a [1, 8192] row. -/
def outRow (x y : Pts) : (⟨2, ![1, 8192]⟩ : Shape).Idx → EReal := fun i => nearY x y (i 1)

theorem inRow_apply (x y : Pts) (u : Fin 1) (m : Fin 8192) : inRow x y (ix2 u m) = nearX x y m := rfl
theorem outRow_apply (x y : Pts) (u : Fin 1) (n : Fin 8192) : outRow x y (ix2 u n) = nearY x y n := rfl

/-- A row's total is the sum over its lanes. -/
theorem sum_row (f : (⟨2, ![1, 8192]⟩ : Shape).Idx → EReal) : ∑ i, f i = ∑ m : Fin 8192, f (ix2 (0 : Fin 1) m) := by
  rw [sum_idx2, Fin.sum_univ_one]

/-- The host lines after the kernel, applied to the two rows: the loss. -/
theorem total_eq (x y : Pts) (h : (⟨2, ![1, 8192]⟩ : Shape).ReducesTo [0, 1] ⟨0, ![]⟩) (hS : 0 < (⟨0, ![]⟩ : Shape).numel) :
    Host.divf (F := Ideal) (φ := .f32)
        (addf (Host.reduceAdd (F := Ideal) (φ := .f32) (inRow x y) (constant ⟨0, ![]⟩ .f32 0x00000000#32) h hS)
              (Host.reduceAdd (F := Ideal) (φ := .f32) (outRow x y) (constant ⟨0, ![]⟩ .f32 0x00000000#32) h hS))
        (constant ⟨0, ![]⟩ .f32 0x46000000#32)
      = fun _ => loss x y := by
  funext i
  simp only [Host.divf, Host.reduceAdd, Ideal.hostReduceAdd_def, addf, Ideal.addf_def, Ideal.hostDivf_def, constant,
    Ideal.ofBits_def]
  rw [Ideal.hostReduceAdd_total h (fun b => b.elim0), Ideal.hostReduceAdd_total h (fun b => b.elim0), sum_row, sum_row]
  exact loss_two_sums x y

end Cert.Chamfer

end
-- ==== Proof.KFinal.lean ====
/-
  The kernel's two output rows after the run, and the program's result.

  Point t writes its row-minima block back as lanes 256·t … 256·t + 255 of the first output row, so the 32 points
  cover the row and it ends holding, lane by lane, the nearest-row distances of y's points. The second output row
  is written back once, after the last point, whole: the nearest-point distances of x's rows. The host lines after
  the kernel then total the two rows, add the totals and divide by 8192: the loss.
-/
import proofs.«119722_j43052752175176_1_alg».proof.Proof.Gen.KernelIdeal.Frame
import proofs.«119722_j43052752175176_1_alg».proof.Proof.KValue
import proofs.«119722_j43052752175176_1_alg».proof.Proof.Total
import Idealize.ShloMosaic.Lib.Pipeline.Value
import Idealize.ShloMosaic.Lib.StableHlo.Run
import Idealize.ShloMosaic.Lib.Tactic

noncomputable section

namespace Cert.KernelIdeal.KFinal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.KValue Cert.Chamfer

variable (m : (ℓ : Loc nD τ sig) → Buf (Elt Ideal) ℓ) (ρ : Dev nD → PrngReg)

/-- The index map of the row-minima window: point t writes block (0, t) of the first output row. -/
theorem idx2 : ∀ t : Fin cfg0.N, win0_2.index t (0 : Fin 2) = 0 ∧ win0_2.index t (1 : Fin 2) = t.val :=
  (by decide +kernel : ∀ t : Fin grid0.N, _)

/-- The index map of the column-minima window: every point's block is block (0, 0), the whole row. -/
theorem idx3 : ∀ t : Fin cfg0.N, win0_3.index t (0 : Fin 2) = 0 ∧ win0_3.index t (1 : Fin 2) = 0 :=
  (by decide +kernel : ∀ t : Fin grid0.N, _)

/-- What point t writes back to the first output row is block t of the row of nearest-row distances: lane a of
    the block is lane 256·t + a of the row (a block's coordinate is index × size + the coordinate inside it). -/
theorem flushed2_eq (c : Dev nD) (t : Fin cfg0.N) :
    (dats m 0 c).flushed 2 t = ((cfg0.win 2).blk t).view.read (Elt Ideal) (inRow (xarr m c) (yarr m c)) := by
  show (cfg0.win 2).cut (grid0.coords t) ((dats m 0 c).after 2 t) = _
  rw [after0_2]
  funext j
  rw [View.read_apply]
  show (outsAt0 m c t.val t.isLt).1 j = inRow (xarr m c) (yarr m c) (((cfg0.win 2).blk t).view.emb j)
  obtain ⟨u, a, rfl⟩ : ∃ (u : Fin 1) (a : Fin 256), j = ix2 u a := ⟨j 0, j 1, eq_ix2 j⟩
  obtain rfl : u = 0 := Subsingleton.elim _ _
  obtain ⟨e0, e1⟩ := idx2 t
  have ht : t.val < 32 := lt_of_lt_of_eq t.isLt (show cfg0.N = 32 from N_0)
  have ha : a.val < 256 := a.isLt
  have h : 256 * t.val + a.val < 8192 := by omega
  rw [out2_at m c t a h]
  have he : ((cfg0.win 2).blk t).view.emb (ix2 (0 : Fin 1) a) = ix2 (0 : Fin 1) (⟨256 * t.val + a.val, h⟩ : Fin 8192) := by
    funext d; apply Fin.ext
    match d with
    | ⟨0, _⟩ => show win0_2.index t (0 : Fin 2) * 1 + 1 * 0 = 0; omega
    | ⟨1, _⟩ => show win0_2.index t (1 : Fin 2) * 256 + 1 * a.val = 256 * t.val + a.val; omega
  rw [he, inRow_apply]

/-- An index of the first output row is in point t's block iff each coordinate is in the block's range. -/
theorem mem_blk2 (t : Fin cfg0.N) (i : S1x8192.Idx) :
    i ∈ ((cfg0.win 2).blk t).view.set ↔ ∀ a : Fin 2, win0_2.index t a * S1x256.size a ≤ (i a).val ∧ (i a).val < win0_2.index t a * S1x256.size a + S1x256.size a := by
  show i ∈ ((View.whole main_v0_0).slice (win0_2.rect t)).set ↔ _
  rw [View.set_slice_whole, Rect.mem_set_unit]
  exact Iff.rfl

/-- The 32 blocks cover the first output row: lane l is in the block of point l / 256. -/
theorem cover2 (i : S1x8192.Idx) : ∃ t : Fin cfg0.N, (cfg0.win 2).flush t = true ∧ i ∈ ((cfg0.win 2).blk t).view.set := by
  have hN : cfg0.N = 32 := N_0
  have hi0 : (i 0).val < 1 := (i 0).isLt
  have hi1 : (i 1).val < 8192 := (i 1).isLt
  have hlt : (i 1).val / 256 < cfg0.N := by rw [hN]; omega
  refine ⟨⟨(i 1).val / 256, hlt⟩, flush0_2 _, ?_⟩
  rw [mem_blk2]
  obtain ⟨e0, e1⟩ := idx2 ⟨(i 1).val / 256, hlt⟩
  have e1' : win0_2.index ⟨(i 1).val / 256, hlt⟩ (1 : Fin 2) = (i 1).val / 256 := e1
  intro a
  match a with
  | ⟨0, _⟩ => show win0_2.index ⟨(i 1).val / 256, hlt⟩ (0 : Fin 2) * 1 ≤ (i 0).val ∧ (i 0).val < win0_2.index ⟨(i 1).val / 256, hlt⟩ (0 : Fin 2) * 1 + 1; omega
  | ⟨1, _⟩ => show win0_2.index ⟨(i 1).val / 256, hlt⟩ (1 : Fin 2) * 256 ≤ (i 1).val ∧ (i 1).val < win0_2.index ⟨(i 1).val / 256, hlt⟩ (1 : Fin 2) * 256 + 256; omega

/-- The one write-back of the second output row, after the last point, writes the row of nearest-point distances:
    the block is the whole row, lane n of the block is lane n of the row. -/
theorem flushed3_eq (c : Dev nD) (t : Fin cfg0.N) (hf : (cfg0.win 3).flush t = true) :
    (dats m 0 c).flushed 3 t = ((cfg0.win 3).blk t).view.read (Elt Ideal) (outRow (xarr m c) (yarr m c)) := by
  have hlt : t.val < 32 := lt_of_lt_of_eq t.isLt (show cfg0.N = 32 from N_0)
  have h31 : t.val % 32 = 31 := (flush0_3 t).mp hf
  have ht : t.val = 31 := by omega
  show (cfg0.win 3).cut (grid0.coords t) ((dats m 0 c).after 3 t) = _
  rw [after0_3]
  funext j
  rw [View.read_apply]
  show (outsAt0 m c t.val t.isLt).2.1 j = outRow (xarr m c) (yarr m c) (((cfg0.win 3).blk t).view.emb j)
  obtain ⟨u, n, rfl⟩ : ∃ (u : Fin 1) (n : Fin 8192), j = ix2 u n := ⟨j 0, j 1, eq_ix2 j⟩
  obtain rfl : u = 0 := Subsingleton.elim _ _
  obtain ⟨e0, e1⟩ := idx3 t
  rw [out3_last m c t ht n]
  have he : ((cfg0.win 3).blk t).view.emb (ix2 (0 : Fin 1) n) = ix2 (0 : Fin 1) n := by
    funext d; apply Fin.ext
    match d with
    | ⟨0, _⟩ => show win0_3.index t (0 : Fin 2) * 1 + 1 * 0 = 0; omega
    | ⟨1, _⟩ => show win0_3.index t (1 : Fin 2) * 8192 + 1 * n.val = n.val; omega
  rw [he, outRow_apply]

/-- An index of the second output row is in point t's block iff each coordinate is in the block's range. -/
theorem mem_blk3 (t : Fin cfg0.N) (i : S1x8192.Idx) :
    i ∈ ((cfg0.win 3).blk t).view.set ↔ ∀ a : Fin 2, win0_3.index t a * S1x8192.size a ≤ (i a).val ∧ (i a).val < win0_3.index t a * S1x8192.size a + S1x8192.size a := by
  show i ∈ ((View.whole main_v0_1).slice (win0_3.rect t)).set ↔ _
  rw [View.set_slice_whole, Rect.mem_set_unit]
  exact Iff.rfl

/-- The last point's block covers the second output row. -/
theorem cover3 (i : S1x8192.Idx) : ∃ t : Fin cfg0.N, (cfg0.win 3).flush t = true ∧ i ∈ ((cfg0.win 3).blk t).view.set := by
  have hN : cfg0.N = 32 := N_0
  have hi0 : (i 0).val < 1 := (i 0).isLt
  have hi1 : (i 1).val < 8192 := (i 1).isLt
  have hlt : 31 < cfg0.N := by rw [hN]; omega
  refine ⟨⟨31, hlt⟩, (flush0_3 _).mpr rfl, ?_⟩
  rw [mem_blk3]
  obtain ⟨e0, e1⟩ := idx3 ⟨31, hlt⟩
  intro a
  match a with
  | ⟨0, _⟩ => show win0_3.index ⟨31, hlt⟩ (0 : Fin 2) * 1 ≤ (i 0).val ∧ (i 0).val < win0_3.index ⟨31, hlt⟩ (0 : Fin 2) * 1 + 1; omega
  | ⟨1, _⟩ => show win0_3.index ⟨31, hlt⟩ (1 : Fin 2) * 8192 ≤ (i 1).val ∧ (i 1).val < win0_3.index ⟨31, hlt⟩ (1 : Fin 2) * 8192 + 8192; omega

/-- The first output row after the run: the nearest-row distances of y's points. -/
theorem final2 (c : Dev nD) : (dats m 0 c).arrAt 2 cfg0.N = inRow (xarr m c) (yarr m c) := by
  exact (dats m 0 c).arrAt_eq_of_cover 2 (inRow (xarr m c) (yarr m c)) (fun t _ => flushed2_eq m c t) cover2

/-- The second output row after the run: the nearest-point distances of x's rows. -/
theorem final3 (c : Dev nD) : (dats m 0 c).arrAt 3 cfg0.N = outRow (xarr m c) (yarr m c) := by
  exact (dats m 0 c).arrAt_eq_of_cover 3 (outRow (xarr m c) (yarr m c)) (fun t hf => flushed3_eq m c t hf) cover3

/-- The host lines after the kernel leave the loss in the result buffer. -/
theorem tail_result (c : Dev nD) :
    Pipeline.afterTail₀ cfgs (dats m) 0 (V0 m) [hostOps1] c main_v4 = fun _ => loss (xarr m c) (yarr m c) := by
  unfold Pipeline.afterTail₀
  show StableHlo.after hostOps1 _ (Proc.devRef .tc main_v4) = _
  after_results
  -- the two rows the host lines read are the two output arrays after the run
  have h2 : Pipeline.withArrays (cfgs 0).spec c (V0 m c) (fun w => (dats m 0 c).arrAt w (cfgs 0).N) (Proc.devRef .tc main_v0_0)
      = inRow (xarr m c) (yarr m c) :=
    (Pipeline.withArrays_arr spec0 launch0.win.arr_inj c (V0 m c) (fun w => (dats m 0 c).arrAt w cfg0.N) 2).trans (final2 m c)
  have h3 : Pipeline.withArrays (cfgs 0).spec c (V0 m c) (fun w => (dats m 0 c).arrAt w (cfgs 0).N) (Proc.devRef .tc main_v0_1)
      = outRow (xarr m c) (yarr m c) :=
    (Pipeline.withArrays_arr spec0 launch0.win.arr_inj c (V0 m c) (fun w => (dats m 0 c).arrAt w cfg0.N) 3).trans (final3 m c)
  rw [h2, h3]
  -- each row summed from the zero word, the sums added, divided by 8192: the loss
  exact total_eq _ _ _ _

/-- The run, read: the result at the loss of the two argument arrays, the arguments unchanged. -/
theorem run : θ_run defs (onTc (τ := τ) (main (F := Ideal))) ⟨m, fun _ => 0, ρ⟩ fun r => ∀ c : Dev nD,
      r.2.mem ((c.tc : Thread nD τ).loc main_v4)
        = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono (fun r h c =>
      ⟨((h c).2 main_v4 (by decide)).trans ((tail_result m c).trans (by rw [xarr_eq, yarr_eq])),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.KFinal

end
-- ==== Proof.RefValue.lean ====
/-
  The reference program computes the chamfer loss.

  Its host lines, read one at a time: the squared row norms of x and of y (each a sum from the zero word), their
  outer sum, the matrix of inner products x·yᵀ (a sum of products over the 128 coordinates, y read through a
  transpose), twice that subtracted, the clamp at zero; then the minimum over the rows of x for every point of y,
  the minimum over the points of y for every row of x (each the fold of `min` from +inf along one axis), their
  pointwise sum, its total from the zero word, and the division by 8192.
-/
import proofs.«119722_j43052752175176_1_alg».proof.Proof.Gen.ReferenceIdeal.Read
import proofs.«119722_j43052752175176_1_alg».proof.Proof.Spec
import Idealize.ShloMosaic.PureOps.Ideal.Laws
import Idealize.ShloMosaic.Lib.ValueIdx

noncomputable section

namespace Cert.ReferenceIdeal.RefValue

open Idealize.ShloMosaic Idealize.ShloMosaic.ValueIdx
open Cert.ReferenceIdeal Cert.ReferenceIdeal.Gen Cert.ReferenceIdeal.Read Cert.Chamfer

/-! ## The composed index maps, at coordinates -/

theorem idx_sqx (n m : Fin 8192) (d : Fin 128) :
    idx_main_v1 (idx_main_v4 (idx_main_v6 (ix2 n m))) d = ix2 n d :=
  funext fun a => Fin.ext (by match a with | ⟨0, _⟩ => rfl | ⟨1, _⟩ => rfl)

theorem idx_sqy (n m : Fin 8192) (d : Fin 128) :
    idx_main_v3 (idx_main_v5 (idx_main_v7 (ix2 n m))) d = ix2 m d :=
  funext fun a => Fin.ext (by match a with | ⟨0, _⟩ => rfl | ⟨1, _⟩ => rfl)

theorem idx_dotx (n m : Fin 8192) (d : Fin 128) : lidx_main_v10 (ix2 n m) d = ix2 n d :=
  funext fun a => Fin.ext (by match a with | ⟨0, _⟩ => rfl | ⟨1, _⟩ => rfl)

theorem idx_doty (n m : Fin 8192) (d : Fin 128) : idx_main_v9 (ridx_main_v10 (ix2 n m) d) = ix2 m d :=
  funext fun a => Fin.ext (by match a with | ⟨0, _⟩ => rfl | ⟨1, _⟩ => rfl)

/-! ## The clamped distance matrix -/

/-- Entry (n, m) of the reference's clamped matrix is the distance between point n of x and point m of y. -/
theorem dist_apply (x y : Pts) (n m : Fin 8192) : val_main_v15 (F := Ideal) x y (ix2 n m) = dist x y n m := by
  rw [val_main_v15_apply, val_main_v13_apply, val_main_v8_apply, val_main_v6_apply, val_main_v4_apply, val_main_v1_apply,
    val_main_v7_apply, val_main_v5_apply, val_main_v3_apply, val_main_v12_apply, val_main_v11_apply, val_main_v10_apply,
    val_main_v14_apply]
  simp only [idx_sqx, idx_sqy, idx_dotx, idx_doty, val_main_v0_apply, val_main_v2_apply, val_main_v9_apply,
    val_main_cst_apply, val_main_cst_0_apply, val_main_cst_1_apply, val_main_cst_2_apply, Ideal.mulf_def, Ideal.addf_def,
    Ideal.subf_def, Ideal.maximumf_def, Ideal.ofBits_def]
  exact dist_from_zero x y n m

/-! ## The two minimum reductions -/

theorem lift_rows (m : Fin 8192) (n : Fin 8192) (h : S8192x8192.Reduces [0] S8192) :
    h.lift (ix1 m) n = ix2 n m :=
  funext fun a => Fin.ext (by match a with | ⟨0, _⟩ => rfl | ⟨1, _⟩ => rfl)

theorem lift_cols (n : Fin 8192) (m : Fin 8192) (h : S8192x8192.Reduces [1] S8192) :
    h.lift (ix1 n) m = ix2 n m :=
  funext fun a => Fin.ext (by match a with | ⟨0, _⟩ => rfl | ⟨1, _⟩ => rfl)

/-- The minimum along the rows of x: every point of y to its nearest point of x. -/
theorem nearX_apply (x y : Pts) (m : Fin 8192) : val_main_v16 (F := Ideal) x y (ix1 m) = nearX x y m := by
  unfold val_main_v16
  rw [Host.reduce_eq_fold_single FloatOps.minimumf _ _ reducesTo_S8192x8192_S8192_d0 (by decide) h_S_ (ix1 m)]
  refine Finset.fold_congr fun n _ => ?_
  exact (congrArg (val_main_v15 (F := Ideal) x y) (lift_rows m n _)).trans (dist_apply x y n m)

/-- The minimum along the points of y: every point of x to its nearest point of y. -/
theorem nearY_apply (x y : Pts) (n : Fin 8192) : val_main_v17 (F := Ideal) x y (ix1 n) = nearY x y n := by
  unfold val_main_v17
  rw [Host.reduce_eq_fold_single FloatOps.minimumf _ _ reducesTo_S8192x8192_S8192_d1 (by decide) h_S_ (ix1 n)]
  refine Finset.fold_congr fun m _ => ?_
  exact (congrArg (val_main_v15 (F := Ideal) x y) (lift_cols n m _)).trans (dist_apply x y n m)

/-! ## The total -/

/-- A rank-1 index set of extent 8192 is its one coordinate's range. -/
def idxEquiv1 : S8192.Idx ≃ Fin 8192 where
  toFun i := i 0
  invFun a := ix1 a
  left_inv i := (eq_ix1 i).symm
  right_inv _ := rfl

theorem sum_idx1 (f : S8192.Idx → EReal) : ∑ i, f i = ∑ a : Fin 8192, f (ix1 a) := by
  rw [← Equiv.sum_comp idxEquiv1.symm f]; rfl

/-- Over any two rows that read the two nearest-distance rows: their pointwise sum, totalled from the zero word and
    divided by the count word, is the loss. -/
theorem total_of (A B : S8192.Idx → EReal) (x y : Pts) (hA : ∀ a : Fin 8192, A (ix1 a) = nearX x y a)
    (hB : ∀ a : Fin 8192, B (ix1 a) = nearY x y a) :
    Host.divf (F := Ideal) (φ := .f32) (Host.reduceAdd (F := Ideal) (φ := .f32) (addf A B) (constant S_ .f32 0x00000000#32)
        reducesTo_S8192_S_d0 h_S_) (constant S_ .f32 0x46000000#32) = fun _ => loss x y := by
  funext i
  simp only [Host.divf, Host.reduceAdd, Ideal.hostReduceAdd_def, Ideal.hostDivf_def, constant, Ideal.ofBits_def]
  rw [Ideal.hostReduceAdd_total reducesTo_S8192_S_d0 (fun b => b.elim0), sum_idx1]
  simp only [addf, Ideal.addf_def, hA, hB]
  exact loss_one_sum x y

/-- The reference's result, at its one index, is the loss. -/
theorem result_eq (x y : Pts) : val_main_v20 (F := Ideal) x y = fun _ => loss x y := by
  unfold val_main_v20 val_main_v19 val_main_v18 val_main_cst_5 val_main_cst_6
  exact total_of (val_main_v16 (F := Ideal) x y) (val_main_v17 (F := Ideal) x y) x y (nearX_apply x y) (nearY_apply x y)

end Cert.ReferenceIdeal.RefValue

end
-- ==== Proof.lean ====
/-
  The kernel and its reference compute the same chamfer loss over the extended reals.

  Both programs take two sets of 8192 points of dimension 128. The kernel keeps x whole, streams y in 32 blocks of 256
  points, and at each block computes the clamped squared distances max((|y_a|² + |x_n|²) − 2·⟨y_a, x_n⟩, 0), their
  minima over x (written out block by block) and their minima over the block (taken into a running minimum carried
  across the blocks); its host lines total the two rows of minima and divide by 8192. The reference forms the whole
  8192 × 8192 distance matrix max((|x_n|² + |y_m|²) − 2·⟨x_n, y_m⟩, 0), takes the two minima along its axes, sums
  them pointwise, totals and divides. Addition and multiplication of extended reals commute, a minimum over 8192
  points is the minimum of the 32 block minima, and the sum of two totals is the total of the pointwise sums; none of
  these laws asks the inputs to be finite, so the precondition is not opened. The ideal pass rewrote nothing, so
  the kernel's idealization is its own text.
-/
import proofs.«119722_j43052752175176_1_alg».proof.Defs
import proofs.«119722_j43052752175176_1_alg».proof.Proof.Gen.Kernel
import proofs.«119722_j43052752175176_1_alg».proof.Proof.Gen.Kernel.Skeleton
import proofs.«119722_j43052752175176_1_alg».proof.Proof.Gen.Kernel.Launch
import proofs.«119722_j43052752175176_1_alg».proof.Proof.Gen.Kernel.Points
import proofs.«119722_j43052752175176_1_alg».proof.Proof.Gen.Kernel.Frame
import proofs.«119722_j43052752175176_1_alg».proof.Proof.Gen.KernelIdeal
import proofs.«119722_j43052752175176_1_alg».proof.Proof.Gen.KernelIdeal.Skeleton
import proofs.«119722_j43052752175176_1_alg».proof.Proof.Gen.KernelIdeal.Launch
import proofs.«119722_j43052752175176_1_alg».proof.Proof.Gen.KernelIdeal.Points
import proofs.«119722_j43052752175176_1_alg».proof.Proof.Gen.KernelIdeal.Frame
import proofs.«119722_j43052752175176_1_alg».proof.Proof.Gen.ReferenceIdeal
import proofs.«119722_j43052752175176_1_alg».proof.Proof.Gen.Pre_finite_inputs
import proofs.«119722_j43052752175176_1_alg».proof.Proof.Gen.ReferenceIdeal.Run
import proofs.«119722_j43052752175176_1_alg».proof.Proof.Gen.ReferenceIdeal.Read
import proofs.«119722_j43052752175176_1_alg».proof.Proof.KFinal
import proofs.«119722_j43052752175176_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the loss of their argument arrays, and the arguments agree. -/
theorem algebraic : Cert.algebraic_KernelIdeal_ReferenceIdeal := by
  intro m ρ m' ρ' _ hagree
  refine ⟨fun c => (fun _ => Cert.Chamfer.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.KFinal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
